-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x32000 : Shape := ⟨2, ![4096, 32000]⟩
abbrev S4096 : Shape := ⟨1, ![4096]⟩
abbrev S_ : Shape := ⟨0, ![]⟩

class Facts : Prop where
  bcast_S_S4096x32000 : S_.BroadcastsInDim S4096x32000 (![] : Fin 0 → Fin S4096x32000.rank)
  reducesTo_S4096x32000_S_d0_1 : S4096x32000.ReducesTo [0, 1] S_
  h_S_ : 0 < S_.numel

variable [Facts]

def fn {F : FTy → Type} [FloatOps F] (main_arg0 : FVec F S4096x32000 .f32) (main_arg1 : FVec F S4096x32000 .f32) (main_arg2 : IVec S4096 32) : IVec S_ 1 :=
  let main_v0 : FVec F S4096x32000 .f32 := Host.absf main_arg0
  let main_cst : FVec F S_ .f32 := constant S_ .f32 0x7F800000#32
  let main_v1 : FVec F S4096x32000 .f32 := broadcastInDim S4096x32000 ![] bcast_S_S4096x32000 main_cst
  let main_v2 : IVec S4096x32000 1 := cmpf .olt main_v0 main_v1
  let main_c : IVec S_ 1 := constantI S_ 1 1#1
  let main_v3 : IVec S_ 1 := (fun x v => Host.reduce IntOp.andi x v reducesTo_S4096x32000_S_d0_1 h_S_) main_v2 main_c
  let main_v4 : FVec F S4096x32000 .f32 := Host.absf main_arg1
  let main_cst_0 : FVec F S_ .f32 := constant S_ .f32 0x7F800000#32
  let main_v5 : FVec F S4096x32000 .f32 := broadcastInDim S4096x32000 ![] bcast_S_S4096x32000 main_cst_0
  let main_v6 : IVec S4096x32000 1 := cmpf .olt main_v4 main_v5
  let main_c_1 : IVec S_ 1 := constantI S_ 1 1#1
  let main_v7 : IVec S_ 1 := (fun x v => Host.reduce IntOp.andi x v reducesTo_S4096x32000_S_d0_1 h_S_) main_v6 main_c_1
  let main_v8 : IVec S_ 1 := andi main_v3 main_v7
  main_v8
-- ==== Kernel.lean ====
abbrev S4096x32000 : Shape := ⟨2, ![4096, 32000]⟩
abbrev S4096 : Shape := ⟨1, ![4096]⟩
abbrev S4096x1 : Shape := ⟨2, ![4096, 1]⟩
abbrev S256x3200 : Shape := ⟨2, ![256, 3200]⟩
abbrev S256x1 : Shape := ⟨2, ![256, 1]⟩
abbrev S256 : Shape := ⟨1, ![256]⟩
abbrev S_ : Shape := ⟨0, ![]⟩

abbrev nBuf : Space → Nat
  | .hbm => 26
  | .vmem => 6
  | .smem => 0
  | _ => 0

abbrev bufTy : (tb : Table) → Fin (tcTables nBuf tb) → BufTy
  | .hbm, ⟨0, _⟩ => ⟨S4096x32000, .f32⟩
  | .hbm, ⟨1, _⟩ => ⟨S4096x32000, .f32⟩
  | .hbm, ⟨2, _⟩ => ⟨S4096, .i32⟩
  | .hbm, ⟨3, _⟩ => ⟨S4096x1, .f32⟩
  | .hbm, ⟨4, _⟩ => ⟨S4096, .f32⟩
  | .hbm, ⟨5, _⟩ => ⟨S_, .i32⟩
  | .hbm, ⟨6, _⟩ => ⟨S4096, .i32⟩
  | .hbm, ⟨7, _⟩ => ⟨S4096, .i1⟩
  | .hbm, ⟨8, _⟩ => ⟨S_, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S4096, .i32⟩
  | .hbm, ⟨13, _⟩ => ⟨S_, .i32⟩
  | .hbm, ⟨14, _⟩ => ⟨S_, .i32⟩
  | .hbm, ⟨15, _⟩ => ⟨S_, .f32⟩
  | .hbm, ⟨16, _⟩ => ⟨S_, .f32⟩
  | .hbm, ⟨17, _⟩ => ⟨S_, .i1⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .local _ .vmem, ⟨0, _⟩ => ⟨S256x3200, .f32⟩
  | .local _ .vmem, ⟨1, _⟩ => ⟨S256x3200, .f32⟩
  | .local _ .vmem, ⟨2, _⟩ => ⟨S256x3200, .f32⟩
  | .local _ .vmem, ⟨3, _⟩ => ⟨S256x3200, .f32⟩
  | .local _ .vmem, ⟨4, _⟩ => ⟨S256x1, .f32⟩
  | .local _ .vmem, ⟨5, _⟩ => ⟨S256x1, .f32⟩
  | _, _ => ⟨S4096x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_call0_v0 : Ref sig .tc := ⟨.hbm, 9, rfl⟩
abbrev main_call0_v1 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_cst_4 : Ref sig .tc := ⟨.hbm, 23, rfl⟩
abbrev main_call1_v0 : Ref sig .tc := ⟨.hbm, 24, rfl⟩
abbrev main_v12 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x3200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x3200 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S256x1_S256x1_0_0 : ∀ a, (![0, 0] : Fin 2 → Nat) a + S256x1.size a ≤ S256x1.size a
  h_S256x1 : 0 < S256x1.numel
  inb_S256x3200_S256x3200_0_0 : ∀ a, (![0, 0] : Fin 2 → Nat) a + S256x3200.size a ≤ S256x3200.size a
  h_S256x3200 : 0 < S256x3200.numel
  reduces_S256x3200_S256 : S256x3200.Reduces [1] S256
  shapeCasts_S256_S256x1 : S256.ShapeCasts S256x1
  shapeCasts_S256x1_S256x1 : S256x1.ShapeCasts S256x1
  shapeCasts_S4096x1_S4096 : S4096x1.ShapeCasts S4096
  bcast_S_S4096 : S_.BroadcastsInDim S4096 (![] : Fin 0 → Fin S4096.rank)
  natLt_1_32 : 1 < 32
  reducesTo_S4096_S_d0 : S4096.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x3200.size a ≤ S4096x32000.size a
  hwx0_0 : ∀ i : grid0.Coords, EltTy.bits .f32 = 32 ∨ (Rect.block (s := S4096x32000) S256x3200.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x3200.size a ≤ S4096x32000.size a
  hwx0_1 : ∀ i : grid0.Coords, EltTy.bits .f32 = 32 ∨ (Rect.block (s := S4096x32000) S256x3200.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S4096x1.size a
  hwx0_2 : ∀ i : grid0.Coords, EltTy.bits .f32 = 32 ∨ (Rect.block (s := S4096x1) S256x1.size (cc0_transform_2 i) (hinb0_2 i)).WholeWords (EltTy.packing .f32)

variable [Facts₀]

abbrev win0_0 : Pipeline.Window sig grid0 :=
  Pipeline.Window.ofSpec (Memref.whole main_arg0) S256x3200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x3200.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x32000 : Shape := ⟨2, ![4096, 32000]⟩
abbrev S4096 : Shape := ⟨1, ![4096]⟩
abbrev S_ : Shape := ⟨0, ![]⟩

abbrev nBuf : Space → Nat
  | .hbm => 47
  | .vmem => 0
  | .smem => 0
  | _ => 0

abbrev bufTy : (tb : Table) → Fin (tcTables nBuf tb) → BufTy
  | .hbm, ⟨0, _⟩ => ⟨S4096x32000, .f32⟩
  | .hbm, ⟨1, _⟩ => ⟨S4096x32000, .f32⟩
  | .hbm, ⟨2, _⟩ => ⟨S4096, .i32⟩
  | .hbm, ⟨3, _⟩ => ⟨S4096x32000, .f32⟩
  | .hbm, ⟨4, _⟩ => ⟨S4096x32000, .f32⟩
  | .hbm, ⟨5, _⟩ => ⟨S4096x32000, .f32⟩
  | .hbm, ⟨6, _⟩ => ⟨S_, .f32⟩
  | .hbm, ⟨7, _⟩ => ⟨S4096x32000, .f32⟩
  | .hbm, ⟨8, _⟩ => ⟨S4096x32000, .f32⟩
  | .hbm, ⟨9, _⟩ => ⟨S4096x32000, .f32⟩
  | .hbm, ⟨10, _⟩ => ⟨S4096x32000, .f32⟩
  | .hbm, ⟨11, _⟩ => ⟨S4096x32000, .f32⟩
  | .hbm, ⟨12, _⟩ => ⟨S4096x32000, .f32⟩
  | .hbm, ⟨13, _⟩ => ⟨S_, .f32⟩
  | .hbm, ⟨14, _⟩ => ⟨S4096, .f32⟩
  | .hbm, ⟨15, _⟩ => ⟨S4096x32000, .f32⟩
  | .hbm, ⟨16, _⟩ => ⟨S4096x32000, .f32⟩
  | .hbm, ⟨17, _⟩ => ⟨S_, .f32⟩
  | .hbm, ⟨18, _⟩ => ⟨S4096, .f32⟩
  | .hbm, ⟨19, _⟩ => ⟨S_, .f32⟩
  | .hbm, ⟨20, _⟩ => ⟨S4096, .f32⟩
  | .hbm, ⟨21, _⟩ => ⟨S4096, .f32⟩
  | .hbm, ⟨22, _⟩ => ⟨S_, .f32⟩
  | .hbm, ⟨23, _⟩ => ⟨S4096, .f32⟩
  | .hbm, ⟨24, _⟩ => ⟨S4096, .f32⟩
  | .hbm, ⟨25, _⟩ => ⟨S4096, .f32⟩
  | .hbm, ⟨26, _⟩ => ⟨S_, .i32⟩
  | .hbm, ⟨27, _⟩ => ⟨S4096, .i32⟩
  | .hbm, ⟨28, _⟩ => ⟨S4096, .i1⟩
  | .hbm, ⟨29, _⟩ => ⟨S_, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S4096, .i32⟩
  | .hbm, ⟨34, _⟩ => ⟨S_, .i32⟩
  | .hbm, ⟨35, _⟩ => ⟨S_, .i32⟩
  | .hbm, ⟨36, _⟩ => ⟨S_, .f32⟩
  | .hbm, ⟨37, _⟩ => ⟨S_, .f32⟩
  | .hbm, ⟨38, _⟩ => ⟨S_, .i1⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | _, _ => ⟨S4096x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_call0_v0 : Ref sig .tc := ⟨.hbm, 30, rfl⟩
abbrev main_call0_v1 : Ref sig .tc := ⟨.hbm, 31, rfl⟩
abbrev main_v20 : Ref sig .tc := ⟨.hbm, 32, rfl⟩
abbrev main_v21 : Ref sig .tc := ⟨.hbm, 33, rfl⟩
abbrev main_c_5 : Ref sig .tc := ⟨.hbm, 34, rfl⟩
abbrev main_v22 : Ref sig .tc := ⟨.hbm, 35, rfl⟩
abbrev main_v23 : Ref sig .tc := ⟨.hbm, 36, rfl⟩
abbrev main_cst_6 : Ref sig .tc := ⟨.hbm, 37, rfl⟩
abbrev main_v24 : Ref sig .tc := ⟨.hbm, 38, rfl⟩
abbrev main_cst_7 : Ref sig .tc := ⟨.hbm, 39, rfl⟩
abbrev main_v25 : Ref sig .tc := ⟨.hbm, 40, rfl⟩
abbrev main_cst_8 : Ref sig .tc := ⟨.hbm, 41, rfl⟩
abbrev main_v26 : Ref sig .tc := ⟨.hbm, 42, rfl⟩
abbrev main_v27 : Ref sig .tc := ⟨.hbm, 43, rfl⟩
abbrev main_cst_9 : Ref sig .tc := ⟨.hbm, 44, rfl⟩
abbrev main_call1_v0 : Ref sig .tc := ⟨.hbm, 45, rfl⟩
abbrev main_v28 : Ref sig .tc := ⟨.hbm, 46, rfl⟩

abbrev nD : Nat := 1
abbrev τ : Topo := Topo.v7x

variable {F : FTy → Type} [FloatOps F]

class Facts₀ : Prop where
  bcast_S_S4096x32000 : S_.BroadcastsInDim S4096x32000 (![] : Fin 0 → Fin S4096x32000.rank)
  reducesTo_S4096x32000_S4096_d1 : S4096x32000.ReducesTo [1] S4096
  h_S_ : 0 < S_.numel
  bcast_S_S4096 : S_.BroadcastsInDim S4096 (![] : Fin 0 → Fin S4096.rank)
  natLt_1_32 : 1 < 32
  reducesTo_S4096_S_d0 : S4096.ReducesTo [0] S_

variable [Facts₀]

class Facts : Prop extends Facts₀ where

variable [Facts]
-- ==== Proof.JsdPieces.lean ====
/-
  What one run of the kernel body leaves in the output's staging buffer, as a value.

  The body loads the two input tiles whole, forms the row sums of the fused terms, adds them to what the output
  buffer held and stores the result over the whole buffer. At the first vocabulary tile of a row group it first stores the zero block
  and reads it back, so there the result is the zero block plus the row sums; at the later tiles it is the previous
  contents plus the row sums. Both are the body's one arithmetic term: the payload of its last store, applied to
  the two tiles and to the zero block or to the previous contents.
-/
import proofs.«130720_j29892972380471_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.JsdPieces

open Cert.KernelIdeal Cert.KernelIdeal.Gen

variable {F : FTy → Type} [FloatOps F]

/-- Every access of the body starts at the origin of its buffer. -/
theorem origin : (![0, 0] : Fin 2 → Nat) = fun _ => 0 := funext fun a => by fin_cases a <;> rfl

/-- A LATER VOCABULARY TILE: the buffer holding `acc`, the body leaves the payload of `acc` and the two tiles. -/
theorem later_tile (c : Dev nD) (i : grid0.Coords) (a2 : Memref sig .tc .vmem S256x3200 .f32) (h2 : a2.IsWhole)
    (a3 : Memref sig .tc .vmem S256x3200 .f32) (h3 : a3.IsWhole) (a4 : Memref sig .tc .vmem S256x1 .f32) (h4 : a4.IsWhole)
    (hc : ¬cond0_0 i) (x0 x1 : Vec F S256x3200 .f32) (acc : Vec F S256x1 .f32) :
    out0_B_2 c i a2 h2 a3 h3 a4 h4 hc x0 x1 acc = k0_pay2 x0 x1 acc := by
  unfold out0_B_2
  rw [View.read_writes_eq_canon _ _ _ (cover0_B_2 c i a2 h2 a3 h3 a4 h4 hc x0 x1 acc)]
  unfold kernelRun0_B
  dsimp only
  sl_unfold_words
  rw [View.canon_unit_zero origin]
  simp only [View.readAt_eq_ld, h2.read_unread, h3.read_unread, h4.read_unread, View.ld_unit_zero (S := S256x3200) origin,
    View.ld_unit_zero (S := S256x1) origin]

/-- THE FIRST VOCABULARY TILE: the body stores the zero block, reads it back and leaves the payload of the zero block and
    the two tiles. -/
theorem first_tile (c : Dev nD) (i : grid0.Coords) (a2 : Memref sig .tc .vmem S256x3200 .f32) (h2 : a2.IsWhole)
    (a3 : Memref sig .tc .vmem S256x3200 .f32) (h3 : a3.IsWhole) (a4 : Memref sig .tc .vmem S256x1 .f32) (h4 : a4.IsWhole)
    (hc : cond0_0 i) (x0 x1 : Vec F S256x3200 .f32) :
    out0_A_2 c i a2 h2 a3 h3 a4 h4 hc x0 x1 = k0_pay2 x0 x1 (k0_pay1 (F := F)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S256x1) origin, View.readCov_unit_zero (S := S256x1) _ origin]
  simp only [View.readAt_eq_ld, h2.read_unread, h3.read_unread, View.ld_unit_zero (S := S256x3200) origin,
    View.ld_unit_zero (S := S256x1) origin]

end Cert.KernelIdeal.JsdPieces

end
-- ==== Proof.JsdLaw.lean ====
/-
  The arithmetic of the Jensen–Shannon row loss over the extended reals.

  For one vocabulary entry write a = log q and b = log p. Both programs form the mixture's logarithm
  L = log (e^a + ½ (e^b − e^a)). The kernel adds, entry by entry, the FUSED term
  (½ e^b)(b − L) + (½ e^a)(a − L) and sums it over the vocabulary, ten tiles of 3200 entries one after the other;
  the reference sums e^b (b − L) and e^a (a − L) separately over the whole vocabulary and weights each sum by ½.
  The two agree by distributivity of ½ over a finite sum, which on the extended reals needs every summand
  finite: for real a and b the exponentials are positive reals, so is the mixture, and L is a real.
-/
import Idealize.ShloMosaic.PureOps.Ideal
import Idealize.ShloMosaic.PureOps.Ideal.Laws

noncomputable section

open scoped BigOperators

namespace Cert.Jsd

open Idealize.ShloMosaic

/-- The weight one half, the f32 word both programs spell. -/
abbrev half : EReal := Ideal.ofBits .f32 0x3F000000#32

/-- The f32 zero word, the value every sum starts from. -/
abbrev zero : EReal := Ideal.ofBits .f32 0x00000000#32

/-- The word 0x3F000000 denotes the real number one half. -/
theorem half_eq : half = ((1 / 2 : ℝ) : EReal) := by
  simp [Ideal.ofBits, Ideal.ieee, -EReal.coe_mul]; norm_num

/-- The logarithm of the mixture q + ½ (p − q), from a = log q and b = log p. -/
def logMix (a b : EReal) : EReal := Ideal.log (Ideal.exp a + half * (Ideal.exp b - Ideal.exp a))

/-- One vocabulary entry's contribution as the kernel forms it. -/
def fused (a b : EReal) : EReal :=
  half * Ideal.exp b * (b - logMix a b) + half * Ideal.exp a * (a - logMix a b)

/-- One entry of the divergence of p from the mixture. -/
def klP (a b : EReal) : EReal := Ideal.exp b * (b - logMix a b)

/-- One entry of the divergence of q from the mixture. -/
def klQ (a b : EReal) : EReal := Ideal.exp a * (a - logMix a b)

/-- The mixture's logarithm over the reals. -/
def logMixR (a b : ℝ) : ℝ := Real.log (Real.exp a + 1 / 2 * (Real.exp b - Real.exp a))

/-- For real a and b the mixture ½ e^a + ½ e^b is a positive real, so its logarithm is a real. -/
theorem logMix_coe (a b : ℝ) : logMix a b = ((logMixR a b : ℝ) : EReal) := by
  have hpos : 0 < Real.exp a + 1 / 2 * (Real.exp b - Real.exp a) := by
    have ha := Real.exp_pos a
    have hb := Real.exp_pos b
    linarith
  unfold logMix logMixR
  rw [half_eq, Ideal.exp_coe, Ideal.exp_coe, ← EReal.coe_sub, ← EReal.coe_mul, ← EReal.coe_add, Ideal.log_coe,
    if_neg (not_le.mpr hpos)]

theorem fused_coe (a b : ℝ) : fused a b
    = ((1 / 2 * Real.exp b * (b - logMixR a b) + 1 / 2 * Real.exp a * (a - logMixR a b) : ℝ) : EReal) := by
  unfold fused
  rw [logMix_coe, half_eq, Ideal.exp_coe, Ideal.exp_coe]
  simp only [EReal.coe_add, EReal.coe_mul, EReal.coe_sub]

theorem klP_coe (a b : ℝ) : klP a b = ((Real.exp b * (b - logMixR a b) : ℝ) : EReal) := by
  unfold klP
  rw [logMix_coe, Ideal.exp_coe]
  simp only [EReal.coe_mul, EReal.coe_sub]

theorem klQ_coe (a b : ℝ) : klQ a b = ((Real.exp a * (a - logMixR a b) : ℝ) : EReal) := by
  unfold klQ
  rw [logMix_coe, Ideal.exp_coe]
  simp only [EReal.coe_mul, EReal.coe_sub]

/-- The embedding of the reals commutes with finite sums. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- Over finitely many REAL entries the sum of the fused terms is ½ times the one divergence sum plus ½ times the
    other, each begun from the zero word. -/
theorem sum_fused {ι : Type*} (s : Finset ι) (u v : ι → EReal)
    (hu : ∀ i ∈ s, ∃ x : ℝ, u i = x) (hv : ∀ i ∈ s, ∃ y : ℝ, v i = y) :
    zero + ∑ i ∈ s, fused (u i) (v i)
      = half * (zero + ∑ i ∈ s, klP (u i) (v i)) + half * (zero + ∑ i ∈ s, klQ (u i) (v i)) := by
  have ef : ∀ i ∈ s, fused (u i) (v i) = (((1 / 2 * Real.exp (v i).toReal * ((v i).toReal - logMixR (u i).toReal (v i).toReal)
      + 1 / 2 * Real.exp (u i).toReal * ((u i).toReal - logMixR (u i).toReal (v i).toReal) : ℝ)) : EReal) := by
    intro i hi
    obtain ⟨x, hx⟩ := hu i hi
    obtain ⟨y, hy⟩ := hv i hi
    rw [hx, hy, EReal.toReal_coe, EReal.toReal_coe, fused_coe]
  have ep : ∀ i ∈ s, klP (u i) (v i)
      = ((Real.exp (v i).toReal * ((v i).toReal - logMixR (u i).toReal (v i).toReal) : ℝ) : EReal) := by
    intro i hi
    obtain ⟨x, hx⟩ := hu i hi
    obtain ⟨y, hy⟩ := hv i hi
    rw [hx, hy, EReal.toReal_coe, EReal.toReal_coe, klP_coe]
  have eq : ∀ i ∈ s, klQ (u i) (v i)
      = ((Real.exp (u i).toReal * ((u i).toReal - logMixR (u i).toReal (v i).toReal) : ℝ) : EReal) := by
    intro i hi
    obtain ⟨x, hx⟩ := hu i hi
    obtain ⟨y, hy⟩ := hv i hi
    rw [hx, hy, EReal.toReal_coe, EReal.toReal_coe, klQ_coe]
  rw [Finset.sum_congr rfl ef, Finset.sum_congr rfl ep, Finset.sum_congr rfl eq, ← coe_sum, ← coe_sum, ← coe_sum,
    show zero = 0 from Ideal.ofBits_zero_f32, zero_add, zero_add, zero_add, half_eq, ← EReal.coe_mul, ← EReal.coe_mul,
    ← EReal.coe_add]
  refine congrArg _ ?_
  rw [Finset.mul_sum, Finset.mul_sum, ← Finset.sum_add_distrib]
  exact Finset.sum_congr rfl fun i _ => by ring

/-- A sum over n consecutive runs of B entries each is the sum over the n · B entries. -/
theorem sum_range_blocks {M : Type*} [AddCommMonoid M] (f : ℕ → M) (B : ℕ) :
    ∀ n : ℕ, ∑ s ∈ Finset.range n, ∑ j ∈ Finset.range B, f (B * s + j) = ∑ k ∈ Finset.range (n * B), f k
  | 0 => by simp
  | n + 1 => by
    rw [Finset.sum_range_succ, sum_range_blocks f B n, Nat.succ_mul, Finset.sum_range_add]
    refine congrArg _ (Finset.sum_congr rfl fun j _ => ?_)
    rw [Nat.mul_comm]

/-- ONE ROW. Over 32000 real entries, the fused terms summed tile by tile (ten tiles of 3200) from the zero word are
    ½ times the divergence of p plus ½ times the divergence of q, each summed over the whole row from the zero word. -/
theorem row_law (u v : ℕ → EReal) (hu : ∀ k, k < 32000 → ∃ x : ℝ, u k = x) (hv : ∀ k, k < 32000 → ∃ y : ℝ, v k = y) :
    zero + ∑ s ∈ Finset.range 10, ∑ j ∈ Finset.range 3200, fused (u (3200 * s + j)) (v (3200 * s + j))
      = half * (zero + ∑ k ∈ Finset.range 32000, klP (u k) (v k))
        + half * (zero + ∑ k ∈ Finset.range 32000, klQ (u k) (v k)) := by
  rw [sum_range_blocks (fun k => fused (u k) (v k)) 3200 10]
  exact sum_fused (Finset.range (10 * 3200)) u v (fun k hk => hu k (Finset.mem_range.mp hk))
    (fun k hk => hv k (Finset.mem_range.mp hk))

end Cert.Jsd

end
-- ==== Proof.JsdPayload.lean ====
/-
  The body's arithmetic at one row of a tile, over the extended reals.

  Row p of the 256 × 1 block the body stores is the buffer's previous entry of row p plus the sum, over the 3200
  vocabulary entries j of the tile, of the fused term of the two inputs at (p, j): the lane reduction is a sum over the
  second coordinate, and the two reshapes between 256 and 256 × 1 move no entry.
-/
import proofs.«130720_j29892972380471_1_alg».proof.Proof.Gen.KernelIdeal.Skeleton
import proofs.«130720_j29892972380471_1_alg».proof.Proof.JsdLaw
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.JsdPayload

open Cert.KernelIdeal Cert.KernelIdeal.Gen

/-- The lane reduction's index with lane j put back into row p is the tile's entry (p, j). -/
theorem lift_row (p : Fin 256) (j : Fin 3200) :
    (Facts₀.reduces_S256x3200_S256 : S256x3200.Reduces [1] S256).lift (ix1 p) j = ix2 p j :=
  funext fun a => Fin.ext (by match a with | ⟨0, _⟩ => rfl | ⟨1, _⟩ => rfl)

/-- Row p of the stored block: the previous entry plus the row's sum of fused terms over the tile. -/
theorem payload_row (x0 x1 : Vec Ideal S256x3200 .f32) (acc : Vec Ideal S256x1 .f32) (p : Fin 256) :
    k0_pay2 (F := Ideal) x0 x1 acc (ix2 p (0 : Fin 1))
      = acc (ix2 p (0 : Fin 1)) + ∑ j : Fin 3200, Cert.Jsd.fused (x0 (ix2 p j)) (x1 (ix2 p j)) := by
  unfold k0_pay2
  dsimp only
  rw [addf_apply, shapeCast_self]
  refine congrArg (acc (ix2 p (0 : Fin 1)) + ·) ?_
  rw [shapeCast_apply _ _ (ix2 p (0 : Fin 1)) (ix1 p) (by
    rw [Shape.rowMajor_val_one, Shape.rowMajor_val_two]; show p.val = p.val * 1 + 0; omega)]
  refine (Ideal.multiReduction_add_single _ _ _ _ _ (ix1 p)).trans ?_
  refine Finset.sum_congr rfl fun (j : Fin 3200) _ => ?_
  refine (congrArg _ (lift_row p j)).trans ?_
  rfl

end Cert.KernelIdeal.JsdPayload

end
-- ==== Proof.JsdRows.lean ====
/-
  The per-row loss as a function of the two argument arrays, in the two arrangements the programs compute it.

  An array of logits is read at natural-number coordinates (`entry`: the array's value inside its extents, zero
  outside), so that a row's entries can be summed over ranges of naturals. Row r's loss is, in the kernel's arrangement
  (`tiledLoss`), the zero word plus ten tile sums of the fused terms, tile s running over the entries 3200·s … 3200·s + 3199;
  in the reference's arrangement (`splitLoss`) it is ½ of the divergence sum of p plus ½ of that of q, each over the
  row's 32000 entries. When both arrays are real at every index the two are equal.
-/
import proofs.«130720_j29892972380471_1_alg».proof.Proof.JsdLaw
import Idealize.ShloMosaic.Lib.ValueIdx

noncomputable section

open scoped BigOperators

namespace Cert.Jsd

open Idealize.ShloMosaic Idealize.ShloMosaic.ValueIdx

/-- A 4096 × 32000 array over the extended reals. -/
abbrev Logits : Type := (⟨2, ![4096, 32000]⟩ : Shape).Idx → EReal

/-- The array at natural-number coordinates: its value inside the extents, zero outside. -/
def entry (X : Logits) (r k : ℕ) : EReal :=
  if h : r < 4096 ∧ k < 32000 then X (ix2 (⟨r, h.1⟩ : Fin 4096) (⟨k, h.2⟩ : Fin 32000)) else 0

/-- Inside the extents it is the array's entry. -/
theorem entry_eq (X : Logits) (r : Fin 4096) (k : Fin 32000) : entry X r.val k.val = X (ix2 r k) := by
  unfold entry
  rw [dif_pos ⟨r.isLt, k.isLt⟩]

/-- Row r's sum of fused terms over vocabulary tile s. -/
def tilePart (X Y : Logits) (r s : ℕ) : EReal :=
  ∑ j ∈ Finset.range 3200, fused (entry X r (3200 * s + j)) (entry Y r (3200 * s + j))

/-- Row r's loss summed tile by tile from the zero word. -/
def tiledLoss (X Y : Logits) (r : ℕ) : EReal := zero + ∑ s ∈ Finset.range 10, tilePart X Y r s

/-- Row r's loss as the two weighted divergence sums. -/
def splitLoss (X Y : Logits) (r : ℕ) : EReal :=
  half * (zero + ∑ k ∈ Finset.range 32000, klP (entry X r k) (entry Y r k))
    + half * (zero + ∑ k ∈ Finset.range 32000, klQ (entry X r k) (entry Y r k))

/-- For arrays of reals the two arrangements of a row's loss agree. -/
theorem tiled_eq_split (X Y : Logits) (hX : ∀ i, ∃ x : ℝ, X i = x) (hY : ∀ i, ∃ y : ℝ, Y i = y) (r : ℕ) (hr : r < 4096) :
    tiledLoss X Y r = splitLoss X Y r :=
  row_law (entry X r) (entry Y r)
    (fun k hk => by unfold entry; rw [dif_pos ⟨hr, hk⟩]; exact hX _)
    (fun k hk => by unfold entry; rw [dif_pos ⟨hr, hk⟩]; exact hY _)

end Cert.Jsd

end
-- ==== Proof.JsdValue.lean ====
/-
  The kernel's result array: every row's loss, summed tile by tile.

  The grid has 16 row groups of 256 rows and, inside each, 10 vocabulary tiles of 3200 entries; point t is tile t % 10
  of row group t / 10. The block of log q (of log p) the body sees at point t holds the array's entries
  (256·(t/10) + p, 3200·(t%10) + j). The output's staging buffer is reset at the first tile of a row group and added into at
  the later ones, so after point t its row p holds the zero word plus the tile sums 0 … t % 10 of array row
  256·(t/10) + p (induction on the point). It is written back after the last tile only, onto rows
  256·(t/10) … 256·(t/10) + 255 of the 4096 × 1 result; the sixteen write-backs cover the result, which therefore ends
  holding, at row r, that row's loss summed over the ten tiles.
-/
import proofs.«130720_j29892972380471_1_alg».proof.Proof.Gen.KernelIdeal.Frame
import proofs.«130720_j29892972380471_1_alg».proof.Proof.JsdPieces
import proofs.«130720_j29892972380471_1_alg».proof.Proof.JsdPayload
import proofs.«130720_j29892972380471_1_alg».proof.Proof.JsdRows
import Idealize.ShloMosaic.Lib.Pipeline.Value
import Idealize.ShloMosaic.Lib.ValueIdx

noncomputable section

open scoped BigOperators
open Idealize.ShloMosaic Idealize.ShloMosaic.TcCoe Idealize.SL.Sem Idealize.ShloMosaic.ValueIdx
open Idealize.ShloMosaic.Pipeline (Dat)

namespace Cert.KernelIdeal.JsdValue

open Cert.KernelIdeal Cert.KernelIdeal.Gen

variable (m : (ℓ : Loc nD τ sig) → Buf (Elt Ideal) ℓ) (ρ : Dev nD → PrngReg)

/-- The array log q as the region finds it. -/
abbrev qarr (c : Dev nD) : Vec Ideal S4096x32000 .f32 := V m c main_arg0
/-- The array log p as the region finds it. -/
abbrev parr (c : Dev nD) : Vec Ideal S4096x32000 .f32 := V m c main_arg1
/-- The tile of log q the body sees at point t. -/
abbrev qblk (c : Dev nD) (t : Fin cfg0.N) : Vec Ideal S256x3200 .f32 := iblk m c 0 t
/-- The tile of log p the body sees at point t. -/
abbrev pblk (c : Dev nD) (t : Fin cfg0.N) : Vec Ideal S256x3200 .f32 := iblk m c 1 t

/-- Point t is vocabulary tile t % 10 of row group t / 10, for both inputs; the output's block is row group t / 10. -/
theorem index_facts : ∀ t : Fin cfg0.N,
    win0_0.index t (0 : Fin 2) = t.val / 10 ∧ win0_0.index t (1 : Fin 2) = t.val % 10
    ∧ win0_1.index t (0 : Fin 2) = t.val / 10 ∧ win0_1.index t (1 : Fin 2) = t.val % 10
    ∧ win0_2.index t (0 : Fin 2) = t.val / 10 ∧ win0_2.index t (1 : Fin 2) = 0 :=
  (by decide +kernel : ∀ t : Fin grid0.N,
    win0_0.index t (0 : Fin 2) = t.val / 10 ∧ win0_0.index t (1 : Fin 2) = t.val % 10
    ∧ win0_1.index t (0 : Fin 2) = t.val / 10 ∧ win0_1.index t (1 : Fin 2) = t.val % 10
    ∧ win0_2.index t (0 : Fin 2) = t.val / 10 ∧ win0_2.index t (1 : Fin 2) = 0)

/-- Entry (p, j) of the tile of log q at point t is the array's entry (256·(t/10) + p, 3200·(t%10) + j). -/
theorem qblk_entry (c : Dev nD) (t : Fin cfg0.N) (p : Fin 256) (j : Fin 3200) :
    qblk m c t (ix2 p j) = Cert.Jsd.entry (qarr m c) (256 * (t.val / 10) + p.val) (3200 * (t.val % 10) + j.val) := by
  have hN : t.val < 160 := lt_of_lt_of_eq t.isLt (show cfg0.N = 160 from N_0)
  have hp := p.isLt
  have hj := j.isLt
  obtain ⟨e0, e1, -, -, -, -⟩ := index_facts t
  unfold Cert.Jsd.entry
  rw [dif_pos ⟨by omega, by omega⟩]
  show iblk m c 0 t (ix2 p j) = _
  unfold iblk
  rw [View.read_apply]
  show V m c main_arg0 _ = V m c main_arg0 _
  refine congrArg (V m c main_arg0) (funext fun a => Fin.ext ?_)
  match a with
  | ⟨0, _⟩ => show win0_0.index t (0 : Fin 2) * 256 + 1 * p.val = 256 * (t.val / 10) + p.val; rw [e0]; omega
  | ⟨1, _⟩ => show win0_0.index t (1 : Fin 2) * 3200 + 1 * j.val = 3200 * (t.val % 10) + j.val; rw [e1]; omega

/-- The same for log p. -/
theorem pblk_entry (c : Dev nD) (t : Fin cfg0.N) (p : Fin 256) (j : Fin 3200) :
    pblk m c t (ix2 p j) = Cert.Jsd.entry (parr m c) (256 * (t.val / 10) + p.val) (3200 * (t.val % 10) + j.val) := by
  have hN : t.val < 160 := lt_of_lt_of_eq t.isLt (show cfg0.N = 160 from N_0)
  have hp := p.isLt
  have hj := j.isLt
  obtain ⟨-, -, e2, e3, -, -⟩ := index_facts t
  unfold Cert.Jsd.entry
  rw [dif_pos ⟨by omega, by omega⟩]
  show iblk m c 1 t (ix2 p j) = _
  unfold iblk
  rw [View.read_apply]
  show V m c main_arg1 _ = V m c main_arg1 _
  refine congrArg (V m c main_arg1) (funext fun a => Fin.ext ?_)
  match a with
  | ⟨0, _⟩ => show win0_1.index t (0 : Fin 2) * 256 + 1 * p.val = 256 * (t.val / 10) + p.val; rw [e2]; omega
  | ⟨1, _⟩ => show win0_1.index t (1 : Fin 2) * 3200 + 1 * j.val = 3200 * (t.val % 10) + j.val; rw [e3]; omega

/-- Row p's sum of fused terms over the tiles at point t is tile sum t % 10 of array row 256·(t/10) + p. -/
theorem tile_sum (c : Dev nD) (t : Fin cfg0.N) (p : Fin 256) :
    ∑ j : Fin 3200, Cert.Jsd.fused (qblk m c t (ix2 p j)) (pblk m c t (ix2 p j))
      = Cert.Jsd.tilePart (qarr m c) (parr m c) (256 * (t.val / 10) + p.val) (t.val % 10) := by
  unfold Cert.Jsd.tilePart
  rw [← Fin.sum_univ_eq_sum_range (fun j => Cert.Jsd.fused
    (Cert.Jsd.entry (qarr m c) (256 * (t.val / 10) + p.val) (3200 * (t.val % 10) + j))
    (Cert.Jsd.entry (parr m c) (256 * (t.val / 10) + p.val) (3200 * (t.val % 10) + j))) 3200]
  exact Finset.sum_congr rfl fun j _ => by rw [qblk_entry, pblk_entry]

/-- AT THE FIRST TILE of a row group the body leaves, in row p, the zero word plus that tile's sum. -/
theorem step_first (c : Dev nD) (t : Fin cfg0.N) (h0 : t.val % 10 = 0) (p : Fin 256) :
    outsAt0 m c t.val t.isLt (ix2 p (0 : Fin 1))
      = Cert.Jsd.zero + Cert.Jsd.tilePart (qarr m c) (parr m c) (256 * (t.val / 10) + p.val) (t.val % 10) := by
  rw [outsAt0_A m c t h0]
  refine (congrFun (JsdPieces.first_tile (F := Ideal) c (grid0.coords t) (ms0_0 t) (hs0_0 t) (ms0_1 t) (hs0_1 t) (ms0_2 t)
    (hs0_2 t) ((hcond0_0 t).mpr h0) (qblk m c t) (pblk m c t)) (ix2 p (0 : Fin 1))).trans ?_
  rw [JsdPayload.payload_row, tile_sum]
  rfl

/-- AT A LATER TILE it leaves what the point before left plus that tile's sum. -/
theorem step_later (c : Dev nD) (t : Fin cfg0.N) (h0 : ¬t.val % 10 = 0) (p : Fin 256) :
    outsAt0 m c t.val t.isLt (ix2 p (0 : Fin 1))
      = outsAt0 m c (t.val - 1) (Nat.lt_of_le_of_lt (Nat.sub_le _ _) t.isLt) (ix2 p (0 : Fin 1))
        + Cert.Jsd.tilePart (qarr m c) (parr m c) (256 * (t.val / 10) + p.val) (t.val % 10) := by
  rw [outsAt0_B m c t h0]
  refine (congrFun (JsdPieces.later_tile (F := Ideal) c (grid0.coords t) (ms0_0 t) (hs0_0 t) (ms0_1 t) (hs0_1 t) (ms0_2 t)
    (hs0_2 t) (fun h => h0 ((hcond0_0 t).mp h)) (qblk m c t) (pblk m c t)
    (outsAt0 m c (t.val - 1) (Nat.lt_of_le_of_lt (Nat.sub_le _ _) t.isLt))) (ix2 p (0 : Fin 1))).trans ?_
  rw [JsdPayload.payload_row, tile_sum]

/-- THE ACCUMULATION: after point n, row p of the staging buffer holds the zero word plus the tile sums 0 … n % 10 of
    array row 256·(n/10) + p. -/
theorem acc_eq (c : Dev nD) : ∀ (n : ℕ) (h : n < cfg0.N) (p : Fin 256),
    outsAt0 m c n h (ix2 p (0 : Fin 1))
      = Cert.Jsd.zero + ∑ s ∈ Finset.range (n % 10 + 1), Cert.Jsd.tilePart (qarr m c) (parr m c) (256 * (n / 10) + p.val) s
  | 0, h, p => by
    refine (step_first m c ⟨0, h⟩ rfl p).trans ?_
    show Cert.Jsd.zero + Cert.Jsd.tilePart (qarr m c) (parr m c) (256 * (0 / 10) + p.val) (0 % 10) = _
    rw [Nat.zero_mod, Nat.zero_add, Finset.sum_range_one]
  | n + 1, h, p => by
    by_cases h0 : (n + 1) % 10 = 0
    · refine (step_first m c ⟨n + 1, h⟩ h0 p).trans ?_
      show Cert.Jsd.zero + Cert.Jsd.tilePart (qarr m c) (parr m c) (256 * ((n + 1) / 10) + p.val) ((n + 1) % 10) = _
      rw [h0, Nat.zero_add, Finset.sum_range_one]
    · refine (step_later m c ⟨n + 1, h⟩ h0 p).trans ?_
      show outsAt0 m c n (Nat.lt_of_succ_lt h) (ix2 p (0 : Fin 1))
        + Cert.Jsd.tilePart (qarr m c) (parr m c) (256 * ((n + 1) / 10) + p.val) ((n + 1) % 10) = _
      rw [acc_eq c n (Nat.lt_of_succ_lt h) p]
      have hq : (n + 1) / 10 = n / 10 := by omega
      have hr : (n + 1) % 10 = n % 10 + 1 := by omega
      rw [hq, hr, Finset.sum_range_succ _ (n % 10 + 1), add_assoc]

/-- The same at any index of the 256 × 1 block. -/
theorem acc_at (c : Dev nD) (t : Fin cfg0.N) (y : S256x1.Idx) :
    outsAt0 m c t.val t.isLt y
      = Cert.Jsd.zero + ∑ s ∈ Finset.range (t.val % 10 + 1),
          Cert.Jsd.tilePart (qarr m c) (parr m c) (256 * (t.val / 10) + (y 0).val) s := by
  obtain ⟨p, q, rfl⟩ : ∃ (p : Fin 256) (q : Fin 1), y = ix2 p q := ⟨y 0, y 1, eq_ix2 y⟩
  obtain rfl : q = 0 := Subsingleton.elim _ _
  exact acc_eq m c t.val t.isLt p

/-- The result array's contents: row r holds row r's loss summed over the ten tiles. -/
def lossArr (c : Dev nD) : Vec Ideal S4096x1 .f32 := fun i => Cert.Jsd.tiledLoss (qarr m c) (parr m c) (i 0).val

/-- WHAT A WRITE-BACK WRITES: after the last tile of row group t / 10 the buffer is the block of `lossArr` at rows
    256·(t/10) …. -/
theorem flushed_eq (c : Dev nD) (t : Fin cfg0.N) (hf : (cfg0.win 2).flush t = true) :
    (dats m 0 c).flushed 2 t = ((cfg0.win 2).blk t).view.read (Elt Ideal) (lossArr m c) := by
  have h9 : t.val % 10 = 9 := (flush0_2 t).mp hf
  obtain ⟨-, -, -, -, e4, -⟩ := index_facts t
  show (cfg0.win 2).cut (grid0.coords t) ((dats m 0 c).after 2 t) = _
  rw [after0_2]
  funext y
  refine (acc_at m c t y).trans ?_
  show _ = Cert.Jsd.tiledLoss (qarr m c) (parr m c) (win0_2.index t (0 : Fin 2) * 256 + 1 * (y 0).val)
  rw [e4, h9]
  unfold Cert.Jsd.tiledLoss
  rw [show t.val / 10 * 256 + 1 * (y 0).val = 256 * (t.val / 10) + (y 0).val by omega]

/-- An index of the result is in point t's block iff each coordinate is in the block's range. -/
theorem mem_blk (t : Fin cfg0.N) (i : S4096x1.Idx) :
    i ∈ ((cfg0.win 2).blk t).view.set
      ↔ ∀ a : Fin 2, win0_2.index t a * S256x1.size a ≤ (i a).val ∧ (i a).val < win0_2.index t a * S256x1.size a + S256x1.size a := by
  show i ∈ ((View.whole main_v0).slice (win0_2.rect t)).set ↔ _
  rw [View.set_slice_whole, Rect.mem_set_unit]
  exact Iff.rfl

/-- THE RESULT ARRAY after the run: every row's loss (row r is written back after the last tile of row group r / 256). -/
theorem final (c : Dev nD) : (dats m 0 c).arrAt 2 cfg0.N = lossArr m c :=
  (dats m 0 c).arrAt_eq_of_cover 2 (lossArr m c) (flushed_eq m c) fun i => by
    have hi0 : (i 0).val < 4096 := (i 0).isLt
    have hi1 : (i 1).val < 1 := (i 1).isLt
    have hN : cfg0.N = 160 := N_0
    have hlt : 10 * ((i 0).val / 256) + 9 < cfg0.N := by rw [hN]; omega
    obtain ⟨-, -, -, -, e4, e5⟩ := index_facts ⟨10 * ((i 0).val / 256) + 9, hlt⟩
    refine ⟨⟨10 * ((i 0).val / 256) + 9, hlt⟩, (flush0_2 _).mpr (by show (10 * ((i 0).val / 256) + 9) % 10 = 9; omega), ?_⟩
    rw [mem_blk]
    intro a
    match a with
    | ⟨0, _⟩ =>
      show win0_2.index ⟨10 * ((i 0).val / 256) + 9, hlt⟩ (0 : Fin 2) * 256 ≤ (i 0).val
        ∧ (i 0).val < win0_2.index ⟨10 * ((i 0).val / 256) + 9, hlt⟩ (0 : Fin 2) * 256 + 256
      rw [e4]
      show (10 * ((i 0).val / 256) + 9) / 10 * 256 ≤ (i 0).val ∧ (i 0).val < (10 * ((i 0).val / 256) + 9) / 10 * 256 + 256
      omega
    | ⟨1, _⟩ =>
      show win0_2.index ⟨10 * ((i 0).val / 256) + 9, hlt⟩ (1 : Fin 2) * 1 ≤ (i 1).val
        ∧ (i 1).val < win0_2.index ⟨10 * ((i 0).val / 256) + 9, hlt⟩ (1 : Fin 2) * 1 + 1
      rw [e5]
      omega

end Cert.KernelIdeal.JsdValue

end
-- ==== Proof.JsdTail.lean ====
/-
  What both programs do with the 4096 per-row losses and the labels, as one function.

  A row counts when its label is not −100. The counted rows' losses are summed (an uncounted row contributes the zero
  word), the sum is divided by the larger of the number n of counted rows and 1, and the result is that quotient when
  n > 0 and the zero word otherwise. The two programs spell these operations identically; what differs between them
  is only how the per-row losses were obtained, so their results are this one function of two loss vectors.
-/
import Idealize.ShloMosaic.Lib.StableHlo
import Idealize.ShloMosaic.PureOps
import Idealize.ShloMosaic.PureOps.Ideal

noncomputable section

namespace Cert.Jsd

open Idealize.ShloMosaic

/-- One value per row. -/
abbrev Rows : Shape := ⟨1, ![4096]⟩
/-- A single value. -/
abbrev One : Shape := ⟨0, ![]⟩

theorem splat_rows : One.BroadcastsInDim Rows (![] : Fin 0 → Fin Rows.rank) := by decide
theorem rows_to_one : Rows.ReducesTo [0] One := by decide
theorem one_pos : 0 < One.numel := by decide
theorem bit_lt_word : 1 < 32 := by decide

/-- The mean of the counted rows' losses (zero when no row counts), from the per-row losses and the labels. -/
def meanLoss (loss : FVec Ideal Rows .f32) (label : IVec Rows 32) : FVec Ideal One .f32 :=
  select
    (cmpf (F := Ideal) .ogt
      (sitofp (F := Ideal) .f32 (Host.reduce IntOp.addi (extui 32 (cmpi .ne label (broadcastInDim Rows ![] splat_rows (constantI One 32 4294967196#32))) bit_lt_word) (constantI One 32 0#32) rows_to_one one_pos))
      (constant One .f32 0x00000000#32))
    (Host.divf
      (Host.reduceAdd
        (select (cmpi .ne label (broadcastInDim Rows ![] splat_rows (constantI One 32 4294967196#32))) loss
          (broadcastInDim Rows ![] splat_rows (id (constant One .f32 0x00000000#32))))
        (constant One .f32 0x00000000#32) rows_to_one one_pos)
      (maximumf
        (sitofp (F := Ideal) .f32 (Host.reduce IntOp.addi (extui 32 (cmpi .ne label (broadcastInDim Rows ![] splat_rows (constantI One 32 4294967196#32))) bit_lt_word) (constantI One 32 0#32) rows_to_one one_pos))
        (constant One .f32 0x3F800000#32)))
    (id (constant One .f32 0x00000000#32))

end Cert.Jsd

end
-- ==== Proof.JsdRun.lean ====
/-
  The kernel's run, read: its result is the shared tail of the tiled per-row losses and the labels.

  After the region the program reshapes the 4096 × 1 result array to 4096 values and applies the tail (mask by the labels,
  sum, divide by the count). The region leaves the result array at every row's tiled loss, and the labels are never
  written, so the program's last value is the mean loss of those rows.
-/
import proofs.«130720_j29892972380471_1_alg».proof.Proof.JsdValue
import proofs.«130720_j29892972380471_1_alg».proof.Proof.JsdTail
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.JsdRun

open Cert.KernelIdeal Cert.KernelIdeal.Gen Cert.KernelIdeal.JsdValue

variable (m : (ℓ : Loc nD τ sig) → Buf (Elt Ideal) ℓ) (ρ : Dev nD → PrngReg)

/-- The per-row losses as the 4096 values the tail reads. -/
def lossRows (c : Dev nD) : FVec Ideal S4096 .f32 := shapeCast S4096 (lossArr m c) Facts₀.shapeCasts_S4096x1_S4096

/-- The program's last value: the mean of the counted rows' tiled losses. -/
def result (c : Dev nD) : Buf (Elt Ideal) ((c.tc : Thread nD τ).loc main_v12) :=
  Cert.Jsd.meanLoss (lossRows m c) (m ((c.tc : Thread nD τ).loc main_arg2))

/-- After the region the result array's cell holds every row's tiled loss. -/
theorem cell_result (c : Dev nD) :
    Pipeline.withArrays (cfgs 0).spec c (V0 m c) (fun w => (dats m 0 c).arrAt w (cfgs 0).N) (Proc.devRef .tc main_v0)
      = lossArr m c :=
  (Pipeline.withArrays_arr spec0 launch0.win.arr_inj c _ _ 2).trans (final m c)

/-- The labels' cell is as launched. -/
theorem cell_label (c : Dev nD) :
    Pipeline.withArrays (cfgs 0).spec c (V0 m c) (fun w => (dats m 0 c).arrAt w (cfgs 0).N) (Proc.devRef .tc main_arg2)
      = m ((c.tc : Thread nD τ).loc main_arg2) :=
  (Pipeline.withArrays_of_ne _ c (V0 m c) _ main_arg2 (by exact (by decide : ∀ w, Pipeline.arrRef spec0 w ≠ main_arg2))).trans
    (V_main_arg2 m c)

set_option maxHeartbeats 1600000 in
/-- The host operations after the region, applied to what the region left, give the mean loss. -/
theorem tail_eq (c : Dev nD) :
    Pipeline.afterTail₀ cfgs (dats m) 0 (V0 m) [hostOps1, hostOps1_1, hostOps1_2, hostOps1_3] c main_v12 = result m c := by
  unfold Pipeline.afterTail₀
  simp only [hostOps1, hostOps1_1, hostOps1_2, hostOps1_3, List.flatten_cons, List.flatten_nil, List.append_nil, List.cons_append,
    List.nil_append]
  after_results_simp
  rw [cell_result, cell_label]
  simp only [StableHlo.TRef.ofBuf, StableHlo.TRef.toBuf, cast_eq]
  rfl

/-- THE RUN: every weakly fair execution ends with the last value at the mean loss and the arguments unchanged. -/
theorem run : θ_run defs (onTc (τ := τ) (main (F := Ideal))) ⟨m, fun _ => 0, ρ⟩ fun r => ∀ c : Dev nD,
      r.2.mem ((c.tc : Thread nD τ).loc main_v12) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v12 (Pipeline.mem_restRefs_of main_v12 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.JsdRun

end
-- ==== Proof.JsdRef.lean ====
/-
  The reference's result as the mean of the per-row losses in the reference's arrangement.

  The reference's last stage is the shared tail applied to its per-row loss vector and the labels; and that vector, at
  row r, is ½ times (the zero word plus the sum over the row of e^b (b − L)) plus ½ times (the zero word plus the sum
  over the row of e^a (a − L)), with a = log q and b = log p at the row's entries.
-/
import proofs.«130720_j29892972380471_1_alg».proof.Proof.RefRead
import proofs.«130720_j29892972380471_1_alg».proof.Proof.JsdRows
import proofs.«130720_j29892972380471_1_alg».proof.Proof.JsdTail
import Idealize.ShloMosaic.Lib.ValueIdx

noncomputable section

open scoped BigOperators
open Idealize.ShloMosaic Idealize.ShloMosaic.ValueIdx

namespace Cert.ReferenceIdeal.JsdRef

open Cert.ReferenceIdeal Cert.ReferenceIdeal.Gen Cert.ReferenceIdeal.ReadP

/-- The index the reference's row sums read at row r and entry k is (r, k). -/
theorem row_idx (r : Fin 4096) (k : Fin 32000) : idx_main_v9 (ix1 r) k = ix2 r k :=
  funext fun a => by match a with | ⟨0, _⟩ => rfl | ⟨1, _⟩ => rfl

theorem row_idx' (r : Fin 4096) (k : Fin 32000) : idx_main_v12 (ix1 r) k = ix2 r k :=
  funext fun a => by match a with | ⟨0, _⟩ => rfl | ⟨1, _⟩ => rfl

/-- The reference's per-row loss at row r is that row's loss in the split arrangement. -/
theorem loss_row (x0 x1 : (⟨S4096x32000, .f32⟩ : BufTy).Contents (Elt Ideal)) (r : Fin 4096) :
    val_main_v17 (F := Ideal) x0 x1 (ix1 r) = Cert.Jsd.splitLoss x0 x1 r.val := by
  rw [val_main_v17_apply, val_main_v14_apply, val_main_v16_apply, val_main_v13_apply, val_main_v15_apply,
    val_main_cst_2_apply, val_main_cst_3_apply, val_main_v9_apply, val_main_v12_apply, val_main_cst_0_apply,
    val_main_cst_1_apply]
  have e8 : ∀ k : Fin 32000, val_main_v8 (F := Ideal) x0 x1 (idx_main_v9 (ix1 r) k)
      = Cert.Jsd.klP (Cert.Jsd.entry x0 r.val k.val) (Cert.Jsd.entry x1 r.val k.val) := fun k => by
    rw [Cert.Jsd.entry_eq, Cert.Jsd.entry_eq, row_idx]; rfl
  have e11 : ∀ k : Fin 32000, val_main_v11 (F := Ideal) x0 x1 (idx_main_v12 (ix1 r) k)
      = Cert.Jsd.klQ (Cert.Jsd.entry x0 r.val k.val) (Cert.Jsd.entry x1 r.val k.val) := fun k => by
    rw [Cert.Jsd.entry_eq, Cert.Jsd.entry_eq, row_idx']; rfl
  rw [Finset.sum_congr rfl fun k _ => e8 k, Finset.sum_congr rfl fun k _ => e11 k,
    Fin.sum_univ_eq_sum_range (fun k => Cert.Jsd.klP (Cert.Jsd.entry x0 r.val k) (Cert.Jsd.entry x1 r.val k)) 32000,
    Fin.sum_univ_eq_sum_range (fun k => Cert.Jsd.klQ (Cert.Jsd.entry x0 r.val k) (Cert.Jsd.entry x1 r.val k)) 32000]
  rfl

/-- The reference's result is the shared tail of its per-row losses and the labels. -/
theorem result_eq (x0 x1 : (⟨S4096x32000, .f32⟩ : BufTy).Contents (Elt Ideal)) (x2 : (⟨S4096, .i32⟩ : BufTy).Contents (Elt Ideal)) :
    val_main_v28 (F := Ideal) x0 x1 x2 = Cert.Jsd.meanLoss (val_main_v17 (F := Ideal) x0 x1) x2 := rfl

end Cert.ReferenceIdeal.JsdRef

end
-- ==== Proof.JsdFinite.lean ====
/-
  From the precondition to real entries.

  The precondition says that every entry of log q and of log p has absolute value below the word 0x7F800000, which
  denotes +∞. An extended real whose absolute value max x (−x) is below +∞ is neither infinity, so it is a real number.
-/
import proofs.«130720_j29892972380471_1_alg».proof.Pre_finite_inputs
import proofs.«130720_j29892972380471_1_alg».proof.Proof.Gen.Pre_finite_inputs
import Idealize.ShloMosaic.Lib.ReduceAll
import Idealize.ShloMosaic.Lib.ValueIdx
import Idealize.ShloMosaic.PureOps.Ideal.Laws

noncomputable section

open Idealize.ShloMosaic Idealize.ShloMosaic.ValueIdx

namespace Cert.Pre_finite_inputs.JsdFinite

open Cert.Pre_finite_inputs Cert.Pre_finite_inputs.Gen

/-- The scalar shape has one index. -/
instance : Subsingleton S_.Idx := ⟨fun a b => funext fun d => d.elim0⟩

/-- The word 0x7F800000 denotes +∞. -/
theorem ofBits_inf : Ideal.ofBits .f32 0x7F800000#32 = ⊤ := by
  simp [Ideal.ofBits, Ideal.ieee]

/-- An extended real whose absolute value is below +∞ is a real number. -/
theorem real_of_abs_lt (x : EReal) (h : Ideal.cmp .olt (max x (-x)) ⊤ = 1#1) : ∃ r : ℝ, x = r := by
  induction x using EReal.rec with
  | bot => simp [Ideal.cmp] at h
  | coe r => exact ⟨r, rfl⟩
  | top => simp [Ideal.cmp] at h

/-- Under the precondition every entry of both float arrays is a real number. -/
theorem real_entries (x0 x1 : FVec Ideal S4096x32000 .f32) (x2 : IVec S4096 32)
    (h : fn (F := Ideal) x0 x1 x2 = fun _ => 1#1) :
    (∀ i, ∃ r : ℝ, x0 i = r) ∧ (∀ i, ∃ r : ℝ, x1 i = r) := by
  have h0 := congrFun h ix0
  dsimp only [fn] at h0
  obtain ⟨ha, hb⟩ := IntOp.andi_eq_one.mp h0
  refine ⟨fun i => ?_, fun i => ?_⟩
  · have e := Host.reduce_andi_all _ _ _ _ _ ha i
    refine real_of_abs_lt (x0 i) ?_
    rw [← ofBits_inf]
    exact e
  · have e := Host.reduce_andi_all _ _ _ _ _ hb i
    refine real_of_abs_lt (x1 i) ?_
    rw [← ofBits_inf]
    exact e

end Cert.Pre_finite_inputs.JsdFinite

end
-- ==== Proof.lean ====
/-
  The certificate of the fused Jensen–Shannon loss kernel against its jnp reference.

  Inputs: log q and log p, each 4096 × 32000, and 4096 integer labels. For a vocabulary entry write a = log q,
  b = log p and L = log (e^a + ½ (e^b − e^a)), the logarithm of the mixture. The reference forms, per row, the two
  divergence sums Σ e^b (b − L) and Σ e^a (a − L) over the 32000 entries and takes ½ of each; the kernel walks a
  16 × 10 grid (row groups of 256 rows, vocabulary tiles of 3200 entries), adds at each point the row sums of the fused term
  (½ e^b)(b − L) + (½ e^a)(a − L) into an output block that is reset at the first tile of a row group and written back after the
  last. Both programs then take the mean of the rows whose label is not −100.

  The frames of the two kernel programs are the generated ones; the reference's frame is its run with the result
  dropped. The ideal pass rewrote nothing, so there is nothing to preserve. For the value claim: the kernel's result
  array holds, at row r, the zero word plus the ten tile sums of row r (induction over the grid points, JsdValue), the
  reference's per-row loss is the two weighted sums (JsdRef), and for arrays of reals — which is what the precondition
  gives (JsdFinite) — these are equal, by distributivity of ½ over a finite sum of reals and by regrouping the row's
  sum into its ten tiles (JsdLaw, JsdRows). The tail after the per-row losses is one function in both programs (JsdTail).
-/
import proofs.«130720_j29892972380471_1_alg».proof.Defs
import proofs.«130720_j29892972380471_1_alg».proof.Proof.Gen.Kernel
import proofs.«130720_j29892972380471_1_alg».proof.Proof.Gen.Kernel.Skeleton
import proofs.«130720_j29892972380471_1_alg».proof.Proof.Gen.Kernel.Launch
import proofs.«130720_j29892972380471_1_alg».proof.Proof.Gen.Kernel.Points
import proofs.«130720_j29892972380471_1_alg».proof.Proof.Gen.Kernel.Frame
import proofs.«130720_j29892972380471_1_alg».proof.Proof.Gen.KernelIdeal
import proofs.«130720_j29892972380471_1_alg».proof.Proof.Gen.KernelIdeal.Skeleton
import proofs.«130720_j29892972380471_1_alg».proof.Proof.Gen.KernelIdeal.Launch
import proofs.«130720_j29892972380471_1_alg».proof.Proof.Gen.KernelIdeal.Points
import proofs.«130720_j29892972380471_1_alg».proof.Proof.Gen.KernelIdeal.Frame
import proofs.«130720_j29892972380471_1_alg».proof.Proof.Gen.ReferenceIdeal
import proofs.«130720_j29892972380471_1_alg».proof.Proof.RefRun
import proofs.«130720_j29892972380471_1_alg».proof.Proof.RefRead
import proofs.«130720_j29892972380471_1_alg».proof.Proof.Gen.Pre_finite_inputs
import proofs.«130720_j29892972380471_1_alg».proof.Proof.JsdRun
import proofs.«130720_j29892972380471_1_alg».proof.Proof.JsdRef
import proofs.«130720_j29892972380471_1_alg».proof.Proof.JsdFinite
import Idealize.ShloMosaic.Adequacy
import Idealize.ShloMosaic.Init

noncomputable section

namespace Cert.Proof

open Idealize.ShloMosaic Idealize.ShloMosaic.TcCoe Idealize.SL.Sem Idealize.ShloMosaic.ValueIdx

/-- For arrays of reals the kernel's tiled per-row losses are the reference's per-row losses, row by row: the 4096 × 1
    result array read as 4096 values moves no entry, and a row's two arrangements agree. -/
theorem loss_rows_eq (m : (ℓ : Loc Cert.KernelIdeal.nD Cert.KernelIdeal.τ Cert.KernelIdeal.sig) → Buf (Elt Ideal) ℓ)
    (c : Dev Cert.KernelIdeal.nD)
    (hq : ∀ i, ∃ x : ℝ, Cert.KernelIdeal.JsdValue.qarr m c i = (x : EReal))
    (hp : ∀ i, ∃ y : ℝ, Cert.KernelIdeal.JsdValue.parr m c i = (y : EReal)) :
    Cert.ReferenceIdeal.ReadP.val_main_v17 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
      = Cert.KernelIdeal.JsdRun.lossRows m c := by
  funext i
  obtain ⟨r, rfl⟩ : ∃ r : Fin 4096, i = ix1 r := ⟨i 0, eq_ix1 i⟩
  rw [Cert.ReferenceIdeal.JsdRef.loss_row]
  unfold Cert.KernelIdeal.JsdRun.lossRows
  rw [shapeCast_apply _ _ (ix1 r) (ix2 r (0 : Fin 1)) (by
    rw [Shape.rowMajor_val_one, Shape.rowMajor_val_two]; show r.val * 1 + 0 = r.val; omega)]
  exact (Cert.Jsd.tiled_eq_split _ _ hq hp r.val r.isLt).symm

/-- At the ideal instance, from memories agreeing on the arguments and with finite float inputs, both programs end
    with the mean loss of the same per-row losses. -/
theorem algebraic : Cert.algebraic_KernelIdeal_ReferenceIdeal := by
  intro m ρ m' ρ' hpre hagree
  refine ⟨fun c => Cert.KernelIdeal.JsdRun.result m c, Cert.KernelIdeal.JsdRun.run m ρ, ?_⟩
  refine (θ_run Cert.ReferenceIdeal.defs _ _).mono (fun _ h c => ⟨(h c).1.trans ?_, (h c).2⟩)
    (Cert.ReferenceIdeal.ValueP.run (F := Ideal) m' ρ')
  obtain ⟨hq, hp⟩ := Cert.Pre_finite_inputs.JsdFinite.real_entries _ _ _ (hpre c)
  rw [Cert.ReferenceIdeal.ReadP.val_main_v28_eq, Cert.ReferenceIdeal.JsdRef.result_eq, (hagree c).1, (hagree c).2.1,
    (hagree c).2.2, loss_rows_eq m c hq hp]
  rfl

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.ValueP.run (F := Ideal) m ρ),
  trivial,
  algebraic⟩

end Cert.Proof

end
